-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩

abbrev nBuf : Space → Nat
  | .hbm => 48
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S128x128, .bf16⟩
  | .hbm, ⟨26, _⟩ => ⟨S100000x1, .f32⟩
  | .hbm, ⟨27, _⟩ => ⟨S100000x128, .bf16⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000x128, .bf16⟩
  | .hbm, ⟨37, _⟩ => ⟨S1700000x128, .f32⟩
  | .hbm, ⟨38, _⟩ => ⟨S_, .f32⟩
  | .hbm, ⟨39, _⟩ => ⟨S100000x128, .f32⟩
  | .hbm, ⟨40, _⟩ => ⟨S1700000x1, .i32⟩
  | .hbm, ⟨41, _⟩ => ⟨S100000x128, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelHost.lean ====
/-
  The kernel program around its one region, read as values.

  Before the region the host computes, from the edge list alone, what the reference computes in its first operations:
  the sources and targets with the self loops appended, the degree count and the nodes' weights  w = (deg > 0 ? deg^(-1/2) : 0).
  The region stores  hs = (x · W) scaled row by row by w.  After it the host gathers hs's rows at the (wrapped) sources,
  sums what lands on each target (the accumulating scatter, from zeros), scales row v by w v and adds the bias.
  Here: each of those values named; the program's run with its result at that term.
-/
import proofs.«422281_j6296422056681_3_alg».proof.Proof.Gen.KernelIdeal.Frame
import proofs.«422281_j6296422056681_3_alg».proof.Proof.RefRead

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-! ## What the region finds: the host prefix is the reference's -/

/-- The nodes' weights, as the region finds them, are the reference's. -/
theorem V_weight (c : Dev nD) :
    Gen.V m c main_v14 = Cert.ReferenceIdeal.ReadP.val_main_v14 (F := F) (m ((c.tc : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results
  rfl

/-- The targets (self loops appended) are the reference's. -/
theorem V_dst (c : Dev nD) :
    Gen.V m c main_v6 = Cert.ReferenceIdeal.ReadP.val_main_v6 (F := F) (m ((c.tc : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results
  rfl

/-- The sources (self loops appended) are the reference's. -/
theorem V_src (c : Dev nD) :
    Gen.V m c main_v3 = Cert.ReferenceIdeal.ReadP.val_main_v3 (F := F) (m ((c.tc : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results
  rfl

/-- The matrix the region multiplies by is W in the narrower format. -/
theorem V_wmat (c : Dev nD) :
    Gen.V m c main_v15 = truncf .bf16 (m ((c.tc : Thread nD τ).loc main_arg2)) bitsLt_bf16_f32 := by
  dsimp only [Gen.V, Gen.V0]
  simp only [Gen.hostOps0, Gen.hostOps0_1, Gen.hostOps0_2, List.flatten_cons, List.flatten_nil, List.append_nil, List.cons_append, List.nil_append]
  after_results

/-- The column the region scales by is the weights as a column. -/
theorem V_col (c : Dev nD) :
    Gen.V m c main_v16 = broadcastInDim S100000x1 ![0] bcast_S100000_S100000x1_0 (Cert.ReferenceIdeal.ReadP.val_main_v14 (F := F) (m ((c.tc : Thread nD τ).loc main_arg1))) := by
  dsimp only [Gen.V, Gen.V0]
  simp only [Gen.hostOps0, Gen.hostOps0_1, Gen.hostOps0_2, List.flatten_cons, List.flatten_nil, List.append_nil, List.cons_append, List.nil_append]
  after_results
  rfl

/-! ## The host operations after the region -/

set_option maxHeartbeats 1000000 in
/-- The result buffer after the run: the tail's operations over what the region found and what it stored. -/
theorem tail_eq (c : Dev nD) :
    Pipeline.afterTail₀ cfgs (dats m) 0 (V0 m) [hostOps1] c main_v34
      = addf
          (mulf
            (broadcastInDim S100000x128 ![0, 1] bcast_S100000x1_S100000x128_0_1
              (broadcastInDim S100000x1 ![0] bcast_S100000_S100000x1_0 (Gen.V m c main_v14)))
            (Host.scatterAdd scatter_S100000x128_S1700000x1_S1700000x128_1_0_0_1
              (broadcastInDim S100000x128 ![] bcast_S_S100000x128 (constant S_ .f32 0x00000000#32))
              (broadcastInDim S1700000x1 ![0] bcast_S1700000_S1700000x1_0 (Gen.V m c main_v6))
              (extf .f32
                (Host.gather gather_S100000x128_S1700000x1_S1700000x128_1_0_n_n_0_1_1128 ((dats m 0 c).arrAt 3 cfg0.N)
                  (broadcastInDim S1700000x1 ![0] bcast_S1700000_S1700000x1_0
                    (select
                      (cmpi .slt (Gen.V m c main_v3) (broadcastInDim S1700000 ![] bcast_S_S1700000 (constantI S_ 32 0#32)))
                      (addi (Gen.V m c main_v3) (broadcastInDim S1700000 ![] bcast_S_S1700000 (constantI S_ 32 100000#32)))
                      (Gen.V m c main_v3))))
                bitsLt_bf16_f32)))
          (broadcastInDim S100000x128 ![0, 1] bcast_S1x128_S100000x128_0_1
            (broadcastInDim S1x128 ![1] bcast_S128_S1x128_1 (Gen.V m c main_arg3))) := by
  unfold Pipeline.afterTail₀
  simp only [hostOps1, List.flatten_cons, List.flatten_nil, List.append_nil]
  after_results
  rw [Pipeline.withArrays_of_ne _ c (V0 m c) _ main_v14 (by exact (by decide : ∀ w, Pipeline.arrRef spec0 w ≠ main_v14)),
    Pipeline.withArrays_of_ne _ c (V0 m c) _ main_v6 (by exact (by decide : ∀ w, Pipeline.arrRef spec0 w ≠ main_v6)),
    Pipeline.withArrays_of_ne _ c (V0 m c) _ main_v3 (by exact (by decide : ∀ w, Pipeline.arrRef spec0 w ≠ main_v3)),
    Pipeline.withArrays_of_ne _ c (V0 m c) _ main_arg3 (by exact (by decide : ∀ w, Pipeline.arrRef spec0 w ≠ main_arg3)),
    Pipeline.withArrays_arr spec0 launch0.win.arr_inj c _ _ 3]

set_option maxHeartbeats 1000000 in
/-- The same in the reference's words: scale by the weights' column, scatter from zeros at the targets the rows gathered
    at the wrapped sources, add the bias. -/
theorem tail_ref (c : Dev nD) :
    Pipeline.afterTail₀ cfgs (dats m) 0 (V0 m) [hostOps1] c main_v34
      = addf
          (mulf
            (broadcastInDim Cert.ReferenceIdeal.S100000x128 ![0, 1] bcast_S100000x1_S100000x128_0_1
              (broadcastInDim S100000x1 ![0] bcast_S100000_S100000x1_0
                (Cert.ReferenceIdeal.ReadP.val_main_v14 (F := F) (m ((c.tc : Thread nD τ).loc main_arg1)))))
            (Host.scatterAdd Cert.ReferenceIdeal.scatter_S100000x128_S1700000x1_S1700000x128_1_0_0_1
              (Cert.ReferenceIdeal.ReadP.val_main_v41 (F := F))
              (Cert.ReferenceIdeal.ReadP.val_main_v42 (F := F) (m ((c.tc : Thread nD τ).loc main_arg1)))
              (extf .f32
                (Host.gather Cert.ReferenceIdeal.gather_S100000x128_S1700000x1_S1700000x128_1_0_n_n_0_1_1128 ((dats m 0 c).arrAt 3 cfg0.N)
                  (Cert.ReferenceIdeal.ReadP.val_main_v36 (F := F) (m ((c.tc : Thread nD τ).loc main_arg1))))
                bitsLt_bf16_f32)))
          (Cert.ReferenceIdeal.ReadP.val_main_v45 (F := F) (m ((c.tc : Thread nD τ).loc main_arg3))) := by
  rw [tail_eq, V_weight, V_dst, V_src, V_main_arg3]
  rfl

/-! ## The run -/

/-- Every weakly fair execution of the kernel program terminates with the result buffer at the tail's term and the
    arguments unchanged: the generated frame run, read at the result and at the arguments. -/
theorem run (ρ : Dev nD → PrngReg) :
    θ_run defs (onTc (τ := τ) (main (F := F))) ⟨m, fun _ => 0, ρ⟩ (fun r => ∀ c : Dev nD,
      r.2.mem ((c.tc : Thread nD τ).loc main_v34) = Pipeline.afterTail₀ cfgs (dats m) 0 (V0 m) [hostOps1] c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v34 (Pipeline.mem_restRefs_of main_v34 (by decide) (by decide)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.HostValue

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.RegionValue.lean ====
/-
  The matmul region's result, index by index.  The region walks the 20 row blocks of 5000 rows of the
  [100000,128] array `x`; at each it multiplies the block by the whole [128,128] array `W`, scales row `p` by the
  column entry `d[p,0]`, and writes the block back.  At the extended reals every change of float format is the
  identity, so entry `(p,q)` of the result array is `(Σ_k x[p,k]·W[k,q]) · d[p,0]`.
-/
import proofs.«422281_j6296422056681_3_alg».proof.Proof.Gen.KernelIdeal.Frame
import proofs.«422281_j6296422056681_3_alg».proof.Proof.LibKeepdims
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

/-! ## The body's arithmetic at one entry of a block -/

/-- The offsets of a load or store of a whole block: zero on both axes. -/
theorem hz : (![0, 0] : Fin 2 → Nat) = fun _ => 0 := funext fun a => by fin_cases a <;> rfl

/-- The contraction runs along the second axis of the left operand: its first coordinate is the output's row … -/
theorem lhs_row (i : S5000x128.Idx) (s : dot_S5000x128_S128x128_S5000x128_1_0_0_1_n_n.contr.Idx) :
    (dot_S5000x128_S128x128_S5000x128_1_0_0_1_n_n.lhsIdx i s 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and its second the summation index; -/
theorem lhs_col (i : S5000x128.Idx) (s : dot_S5000x128_S128x128_S5000x128_1_0_0_1_n_n.contr.Idx) :
    (dot_S5000x128_S128x128_S5000x128_1_0_0_1_n_n.lhsIdx i s 1).val = (s ⟨0, by decide⟩).val :=
  dot_S5000x128_S128x128_S5000x128_1_0_0_1_n_n.lhsIdx_val_of_single rfl i s
/-- and along the first axis of the right operand: its first coordinate is the summation index … -/
theorem rhs_row (i : S5000x128.Idx) (s : dot_S5000x128_S128x128_S5000x128_1_0_0_1_n_n.contr.Idx) :
    (dot_S5000x128_S128x128_S5000x128_1_0_0_1_n_n.rhsIdx i s 0).val = (s ⟨0, by decide⟩).val :=
  dot_S5000x128_S128x128_S5000x128_1_0_0_1_n_n.rhsIdx_val_of_single rfl i s
/-- … and its second the output's column. -/
theorem rhs_col (i : S5000x128.Idx) (s : dot_S5000x128_S128x128_S5000x128_1_0_0_1_n_n.contr.Idx) :
    (dot_S5000x128_S128x128_S5000x128_1_0_0_1_n_n.rhsIdx i s 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator, at entry `(r, q)`: row `r` of the left block against column `q` of the right. -/
theorem matmul_entry (a : FVec Ideal S5000x128 .bf16) (b : FVec Ideal S128x128 .bf16) (r : Fin 5000) (q : Fin 128) :
    matmul dot_S5000x128_S128x128_S5000x128_1_0_0_1_n_n none a b (constant S5000x128 .f32 0x00000000#32) (ix2 r q)
      = ∑ k : Fin 128, a (ix2 r k) * b (ix2 k q) := by
  refine (Ideal.matmul_constant_zero_apply dot_S5000x128_S128x128_S5000x128_1_0_0_1_n_n none a b (ix2 r q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun ax => Fin.ext (by
    match ax with
    | ⟨0, _⟩ => exact lhs_row _ _
    | ⟨1, _⟩ => exact (lhs_col _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun ax => Fin.ext (by
    match ax with
    | ⟨0, _⟩ => exact (rhs_row _ _).trans hk
    | ⟨1, _⟩ => exact rhs_col _ _)
  rw [el, er]

/-- What the body stores at entry `(r, q)` of its block, from the three blocks it loaded: the row of the first against
    the column of the second, times the third's entry in row `r` (the one-column block is spread along the rows, and
    no change of float format moves an extended real). -/
theorem pay_entry (x0 : FVec Ideal S5000x128 .f32) (x1 : FVec Ideal S128x128 .bf16) (x2 : FVec Ideal S5000x1 .f32)
    (r : Fin 5000) (q : Fin 128) :
    k0_pay1 (F := Ideal) x0 x1 x2 (ix2 r q) = (∑ k : Fin 128, x0 (ix2 r k) * x1 (ix2 k q)) * x2 (ix2 r (0 : Fin 1)) := by
  unfold k0_pay1
  show (matmul dot_S5000x128_S128x128_S5000x128_1_0_0_1_n_n none (truncf .bf16 x0 bitsLt_bf16_f32) (shapeCast S128x128 x1 shapeCasts_S128x128_S128x128) (constant S5000x128 .f32 0x00000000#32) (ix2 r q))
      * (broadcastTo S5000x128 (shapeCast S5000x1 x2 shapeCasts_S5000x1_S5000x1) broadcasts_S5000x1_S5000x128 (ix2 r q)) = _
  rw [shapeCast_self, shapeCast_self]
  refine congrArg₂ (· * ·) ((matmul_entry _ _ r q).trans rfl) ?_
  exact Idealize.ShloMosaic.Keepdims.broadcastTo_a1_ab_apply x2 broadcasts_S5000x1_S5000x128 r q

/-! ## The result, and the blocks the body loads -/

/-- Entry `(p, q)` of the result from the three arrays: row `p` of the first against column `q` of the second, times the
    third's entry in row `p`. -/
abbrev entry (xa : FVec Ideal S100000x128 .f32) (wa : FVec Ideal S128x128 .bf16) (da : FVec Ideal S100000x1 .f32)
    (p : Fin 100000) (q : Fin 128) : EReal :=
  (∑ k : Fin 128, xa (ix2 p k) * wa (ix2 k q)) * da (ix2 p (0 : Fin 1))

/-- The printed index maps over the grid: at point `t` the three row-blocked windows sit at block `t` of the rows, and
    the window over the whole [128,128] array at its only block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The body's stored entry `(r, q)` when its three loaded blocks are rows `p = 5000·t + r` of the arrays: entry `(p, q)`
    of the result. -/
theorem block_entry (X0 : FVec Ideal S5000x128 .f32) (X1 : FVec Ideal S128x128 .bf16) (X2 : FVec Ideal S5000x1 .f32)
    (xa : FVec Ideal S100000x128 .f32) (wa : FVec Ideal S128x128 .bf16) (da : FVec Ideal S100000x1 .f32)
    (r : Fin 5000) (q : Fin 128) (p : Fin 100000)
    (h0 : ∀ k : Fin 128, X0 (ix2 r k) = xa (ix2 p k)) (h1 : ∀ k : Fin 128, X1 (ix2 k q) = wa (ix2 k q))
    (h2 : X2 (ix2 r (0 : Fin 1)) = da (ix2 p (0 : Fin 1))) :
    k0_pay1 (F := Ideal) X0 X1 X2 (ix2 r q) = entry xa wa da p q := by
  rw [pay_entry, h2]
  exact congrArg (· * da (ix2 p (0 : Fin 1))) (Finset.sum_congr rfl fun k _ => by rw [h0 k, h1 k])

variable (m : (ℓ : Loc nD τ sig) → Buf (Elt Ideal) ℓ)

/-- the arrays the region reads, as it finds them -/
abbrev xarr (c : Dev nD) : FVec Ideal S100000x128 .f32 := Gen.V m c main_arg0
abbrev warr (c : Dev nD) : FVec Ideal S128x128 .bf16 := Gen.V m c main_v15
abbrev darr (c : Dev nD) : FVec Ideal S100000x1 .f32 := Gen.V m c main_v16

/-- At point `t` the first window's block is rows `5000·t … 5000·t + 4999` of the first array. -/
theorem xblk_entry (c : Dev nD) (t : Fin cfg0.N) (r : Fin 5000) (k : Fin 128) (p : Fin 100000)
    (hp : p.val = t.val * 5000 + r.val) :
    (iblk m c 0 t : Vec Ideal S5000x128 .f32) (ix2 r k) = xarr m c (ix2 p k) := by
  obtain ⟨e0, e1, -⟩ := idx_facts t
  unfold iblk
  rw [View.read_apply]
  refine (cast_eq _ _).trans ?_
  refine congrArg (Gen.V m c main_arg0) (funext fun a => Fin.ext ?_)
  match a with
  | ⟨0, _⟩ => show win0_0.index t (0 : Fin 2) * 5000 + 1 * r.val = p.val; omega
  | ⟨1, _⟩ => show win0_0.index t (1 : Fin 2) * 128 + 1 * k.val = k.val; omega

/-- At every point the second window's block is the whole second array. -/
theorem wblk_entry (c : Dev nD) (t : Fin cfg0.N) (k : Fin 128) (q : Fin 128) :
    (iblk m c 1 t : Vec Ideal S128x128 .bf16) (ix2 k q) = warr m c (ix2 k q) := by
  obtain ⟨-, -, e2, e3, -⟩ := idx_facts t
  unfold iblk
  rw [View.read_apply]
  refine (cast_eq _ _).trans ?_
  refine congrArg (Gen.V m c main_v15) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- At point `t` the third window's block is rows `5000·t … 5000·t + 4999` of the one-column array. -/
theorem dblk_entry (c : Dev nD) (t : Fin cfg0.N) (r : Fin 5000) (u : Fin 1) (p : Fin 100000)
    (hp : p.val = t.val * 5000 + r.val) :
    (iblk m c 2 t : Vec Ideal S5000x1 .f32) (ix2 r u) = darr m c (ix2 p u) := by
  obtain ⟨-, -, -, -, e4, e5, -⟩ := idx_facts t
  unfold iblk
  rw [View.read_apply]
  refine (cast_eq _ _).trans ?_
  refine congrArg (Gen.V m c main_v16) (funext fun a => Fin.ext ?_)
  match a with
  | ⟨0, _⟩ => show win0_2.index t (0 : Fin 2) * 5000 + 1 * r.val = p.val; omega
  | ⟨1, _⟩ => show win0_2.index t (1 : Fin 2) * 1 + 1 * u.val = u.val; omega

/-! ## From the blocks to the array -/

/-- The whole result array. -/
abbrev G (c : Dev nD) : FVec Ideal S100000x128 .bf16 :=
  fun i => entry (xarr m c) (warr m c) (darr m c) (i 0) (i 1)

/-- The result at an index whose coordinates are `p` and `q`. -/
theorem G_at (c : Dev nD) (i : S100000x128.Idx) (p : Fin 100000) (q : Fin 128) (hp : (i 0).val = p.val) (hq : (i 1).val = q.val) :
    G m c i = entry (xarr m c) (warr m c) (darr m c) p q := by
  have e : i = ix2 p q := funext fun a => Fin.ext (by
    match a with
    | ⟨0, _⟩ => exact hp
    | ⟨1, _⟩ => exact hq)
  subst e
  rfl

/-- What point `t` writes back is block `t` of the result: rows `5000·t … 5000·t + 4999`. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz]
  simp only [View.ld_unit_zero (S := S5000x128) hz, View.ld_unit_zero (S := S128x128) hz, View.ld_unit_zero (S := S5000x1) hz]
  refine funext fun (j : S5000x128.Idx) => ?_
  obtain ⟨r, q, rfl⟩ : ∃ (r : Fin 5000) (q : Fin 128), j = ix2 r q := ⟨j 0, j 1, eq_ix2 j⟩
  obtain ⟨-, -, -, -, -, -, e6, e7⟩ := idx_facts t
  have ht : t.val < 20 := t.isLt.trans_eq N_0
  have hp : t.val * 5000 + r.val < 100000 := by have := r.isLt; omega
  show k0_pay1 (F := Ideal) (iblk m c 0 t) (iblk m c 1 t) (iblk m c 2 t) (ix2 r q) = _
  refine (block_entry (iblk m c 0 t) (iblk m c 1 t) (iblk m c 2 t) (xarr m c) (warr m c) (darr m c) r q ⟨t.val * 5000 + r.val, hp⟩
    (fun k => xblk_entry m c t r k _ rfl) (fun k => wblk_entry m c t k q) (dblk_entry m c t r 0 _ rfl)).trans ?_
  rw [View.read_apply]
  refine ((cast_eq _ _).trans ?_).symm
  refine G_at m c _ _ _ ?_ ?_
  · show win0_3.index t (0 : Fin 2) * 5000 + 1 * r.val = t.val * 5000 + r.val; omega
  · show win0_3.index t (1 : Fin 2) * 128 + 1 * q.val = q.val; omega

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v17).slice (win0_3.rect t)).set ↔ _
  rw [View.set_slice_whole, Rect.mem_set_unit]
  exact Iff.rfl

/-- Every index of the array is written back by some point: row `p` by point `p / 5000`. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, (show (i 0).val / 5000 < 20 by omega).trans_eq N_0.symm⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The array after the run is the result, whole. -/
theorem final_array (c : Dev nD) : (Gen.dats (F := Ideal) m 0 c).arrAt 3 cfg0.N = G m c :=
  (dats m 0 c).arrAt_eq_of_cover 3 (G m c) (fun t _ => flushed_eq m c t) covered

/-- Entry `(p, q)` of the array after the run. -/
theorem final (c : Dev nD) (p : Fin 100000) (q : Fin 128) :
    (Gen.dats (F := Ideal) m 0 c).arrAt 3 cfg0.N (ix2 p q)
      = (∑ k : Fin 128, xarr m c (ix2 p k) * warr m c (ix2 k q)) * darr m c (ix2 p (0 : Fin 1)) :=
  congrFun (final_array m c) (ix2 p q)

end Cert.KernelIdeal.RegionValue

end
-- ==== Proof.LibSegment.lean ====
/-
  Row gathers, row scatters and a weighted segment sum, read at an index, for any extents.

  `table[idx]` over a table of N rows of C entries and a column of n start indices prints as a gather whose first operand
  axis is collapsed and start-indexed and whose second is an offset axis: result row p is the table's row at the start
  index of p read SIGNED and CLAMPED into [0, N-1].  `segment_sum(updates, idx)` prints as a scatter whose first operand
  axis is inserted and start-indexed and whose second carries the update's window: update row p lands on the operand's
  row at the start index of p read signed and NOT clamped, and is dropped when that row does not exist.  So an update
  row that lands on row v has start index exactly v, and a gather at that same start index reads row v.

  The segment-sum law: with a weight D on the rows that is non-negative and finite everywhere, scaling every gathered
  row by its source's weight, summing what lands on row v and scaling by D v gives what summing the rows scaled by
  (source's weight × target's weight) gives, the target's weight being read by a gather at the (wrapped) target index.
-/
import Idealize.ShloMosaic.Lib.StableHlo.Predicate
import Idealize.ShloMosaic.Lib.SortFacts
import Idealize.ShloMosaic.PureOps.Ideal
import Mathlib.Data.EReal.Operations

noncomputable section

namespace Idealize.ShloMosaic.Segment

open Idealize.ShloMosaic Idealize.ShloMosaic.StableHlo.Predicate

variable {α : Type}

/-- The row of a rank-2 index, as a number below the first extent. -/
abbrev rowOf {n C : Nat} (jj : (⟨2, ![n, C]⟩ : Shape).Idx) : Fin n := jj 0

/-! ## The row gather -/

/-- The dimension numbers of `table[idx]` for a table [N, C], start indices [n, 1] and a result [n, C]. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- Result element (p, q) of the row gather reads the table at (start index of p, clamped; q). -/
theorem rowGather_operandIdx {N C n w : Nat} (hN : 0 < N)
    (wf : GatherDims.WF ⟨2, ![N, C]⟩ ⟨2, ![n, 1]⟩ ⟨2, ![n, C]⟩ [1] [0] [] [0] [] 1 ![1, C])
    (idx : IVec ⟨2, ![n, 1]⟩ w) (p : Fin n) (q : Fin C) :
    (rowGatherDims N C n wf).operandIdx (ij p q) idx = ij ⟨min (idx (ixP p)).toInt.toNat (N - 1), by omega⟩ q := by
  funext a
  refine Fin.ext ?_
  match a with
  | ⟨0, _⟩ =>
    show (rowGatherDims N C n wf).start (ij p q) idx 0 + (rowGatherDims N C n wf).batchCoord (ij p q) 0
      + (rowGatherDims N C n wf).offCoord (ij p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ij p q) ⟨List.idxOf (0 : Fin 2) (rowGatherDims N C n wf).startIndexMap,
        List.idxOf_lt_length_iff.2 (List.mem_singleton.mpr rfl)⟩ = ixP p := by
      funext b; refine Fin.ext ?_
      match b with
      | ⟨0, _⟩ => rfl
      | ⟨1, _⟩ => rfl
    rw [hsi]
    rfl
  | ⟨1, _⟩ =>
    show (rowGatherDims N C n wf).start (ij p q) idx 1 + (rowGatherDims N C n wf).batchCoord (ij p q) 1
      + (rowGatherDims N C n wf).offCoord (ij p q) 1 = q.val
    rw [GatherDims.batchCoord_eq_zero _ _ _ List.not_mem_nil]
    unfold GatherDims.start
    rw [dif_neg (show (1 : Fin 2) ∉ (rowGatherDims N C n wf).startIndexMap from
      (show (1 : Fin 2) ∉ ([0] : List (Fin 2)) by decide))]
    simp only [Nat.zero_add, Nat.add_zero]
    unfold GatherDims.offCoord
    rw [dif_pos (show (1 : Fin 2) ∈ (rowGatherDims N C n wf).sKept from
      (GatherDims.mem_sKept _ _).2 ⟨(show (1 : Fin 2) ∉ ([0] : List (Fin 2)) by decide), List.not_mem_nil⟩)]
    rfl

/-- THE ROW GATHER READ AT (p, q). -/
theorem rowGather_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowGatherDims N C n wf) x idx (ij p q) = x (ij ⟨min (idx (ixP p)).toInt.toNat (N - 1), by omega⟩ q) := by
  unfold Host.gather
  rw [rowGather_operandIdx hN wf idx p q]

/-! ## The row scatter -/

/-- The dimension numbers of `segment_sum` for an operand [N, C], scatter indices [n, 1] and updates [n, C]. -/
abbrev rowScatterDims (N C n : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- An update element that lands on operand element `i` has, as its row's start index read signed, exactly `i`'s row. -/
theorem rowScatter_lands {N C n w : Nat} (wf : ScatterDims.WF ⟨2, ![N, C]⟩ ⟨2, ![n, 1]⟩ ⟨2, ![n, C]⟩ [1] [0] [0] 1)
    (idx : IVec ⟨2, ![n, 1]⟩ w) (jj : (⟨2, ![n, C]⟩ : Shape).Idx) (i : (⟨2, ![N, C]⟩ : Shape).Idx)
    (h : (rowScatterDims N C n wf).resultIdx? jj idx = some i) :
    (idx (ixP (jj 0))).toInt = ((i 0).val : Int) := by
  unfold ScatterDims.resultIdx? at h
  split at h
  · next hall =>
    have hi := Option.some.inj h
    have h0 := hall 0
    have hs : (rowScatterDims N C n wf).start jj idx 0 = (idx (ixP (jj 0))).toInt := by
      unfold ScatterDims.start
      rw [dif_pos (show (0 : Fin 2) ∈ (rowScatterDims N C n wf).scatterDimsToOperandDims from List.mem_singleton.mpr rfl)]
      congr 2
      funext b; refine Fin.ext ?_
      match b with
      | ⟨0, _⟩ => rfl
      | ⟨1, _⟩ => rfl
    have hw : (rowScatterDims N C n wf).window jj 0 = 0 := by
      unfold ScatterDims.window
      rw [dif_neg (show (0 : Fin 2) ∉ (rowScatterDims N C n wf).sKept by
        simp [ScatterDims.sKept, Shape.kept])]
    have hv : (i 0).val = ((rowScatterDims N C n wf).start jj idx 0 + ((rowScatterDims N C n wf).window jj 0 : Int)).toNat := by
      rw [← hi]
    rw [hs, hw] at h0 hv
    omega
  · exact absurd h (by simp)

/-! ## A non-negative finite factor and a sum of extended reals

Multiplication by a non-negative finite number distributes over every sum of extended reals: the factor never changes a
sign and never makes an infinity out of a finite term, so no  inf - inf  can appear on one side only. -/

/-- A non-negative finite factor goes inside a finite sum of extended reals. -/
theorem mul_sum_of_range {ι : Type} (S : Finset ι) {c : EReal} (hc : 0 ≤ c) (hc' : c ≠ ⊤) (f : ι → EReal) :
    c * ∑ j ∈ S, f j = ∑ j ∈ S, c * f j := by
  classical
  induction S using Finset.induction_on with
  | empty => simp
  | insert a S ha ih =>
    rw [Finset.sum_insert ha, Finset.sum_insert ha, EReal.left_distrib_of_nonneg_of_ne_top hc hc', ih]

/-- Summands h j, each already scaled by p j, summed over S and then scaled by c, against the same summands each scaled by
    p j · q j, where q j = c for every j of S. -/
theorem scaled_sum {ι : Type} (S : Finset ι) {c : EReal} (hc : 0 ≤ c) (hc' : c ≠ ⊤) (h p q : ι → EReal)
    (hq : ∀ j ∈ S, q j = c) :
    c * (0 + ∑ j ∈ S, h j * p j) = 0 + ∑ j ∈ S, h j * (p j * q j) := by
  rw [zero_add, zero_add, mul_sum_of_range S hc hc']
  refine Finset.sum_congr rfl fun j hj => ?_
  rw [hq j hj, mul_comm c, mul_assoc]

/-! ## The weighted segment sum -/

/-- The law over any set S of update elements that all land on (v, c). -/
theorem weighted_core {N C n : Nat} (hN : 0 < N)
    (wfs : ScatterDims.WF ⟨2, ![N, C]⟩ ⟨2, ![n, 1]⟩ ⟨2, ![n, C]⟩ [1] [0] [0] 1)
    (wfg : GatherDims.WF ⟨2, ![N, C]⟩ ⟨2, ![n, 1]⟩ ⟨2, ![n, C]⟩ [1] [0] [] [0] [] 1 ![1, C])
    (g1 : GatherDims ⟨1, ![N]⟩ ⟨2, ![n, 1]⟩ ⟨1, ![n]⟩) (hcoll : g1.collapsedSliceDims = [0])
    (hob : g1.operandBatchingDims = []) (hsim : g1.startIndexMap = [0]) (hivd : g1.indexVectorDim = 1)
    (D : (⟨1, ![N]⟩ : Shape).Idx → EReal) (hD : ∀ v, 0 ≤ D v ∧ D v ≠ ⊤)
    (H : (⟨2, ![N, C]⟩ : Shape).Idx → EReal)
    (dst srcw dstw : IVec ⟨2, ![n, 1]⟩ 32)
    (hdstw : ∀ e : Fin n, 0 ≤ (dst (ixP e)).toInt → dstw (ixP e) = dst (ixP e))
    (v : Fin N) (c : Fin C) (S : Finset (⟨2, ![n, C]⟩ : Shape).Idx)
    (hS : ∀ jj ∈ S, (rowScatterDims N C n wfs).resultIdx? jj dst = some (ij v c)) :
    D (Shape.Idx.ofFin v) * (0 + ∑ jj ∈ S,
        Host.gather (rowGatherDims N C n wfg) (fun u => H u * D (Shape.Idx.ofFin (rowOf u))) srcw jj)
      = 0 + ∑ jj ∈ S, Host.gather (rowGatherDims N C n wfg) H srcw jj
          * (Host.gather g1 D srcw (Shape.Idx.ofFin (rowOf jj)) * Host.gather g1 D dstw (Shape.Idx.ofFin (rowOf jj))) := by
  -- every update index is a pair (row p, column q)
  have hpair : ∀ jj : (⟨2, ![n, C]⟩ : Shape).Idx, ∃ (p : Fin n) (q : Fin C), jj = ij p q :=
    fun jj => ⟨jj 0, jj 1, (ij_eta jj).symm⟩
  -- the source row of update element jj
  have hsrc : ∀ jj : (⟨2, ![n, C]⟩ : Shape).Idx,
      Host.gather g1 D srcw (Shape.Idx.ofFin (rowOf jj))
        = D (Shape.Idx.ofFin (rowOf ((rowGatherDims N C n wfg).operandIdx jj srcw))) := by
    intro jj
    obtain ⟨p, q, rfl⟩ := hpair jj
    rw [rowGather_operandIdx hN wfg srcw p q]
    exact gather_take g1 hcoll hob hsim hivd D srcw p hN
  -- the target row of an update element that lands on row v is v
  have hdst : ∀ jj ∈ S, Host.gather g1 D dstw (Shape.Idx.ofFin (rowOf jj)) = D (Shape.Idx.ofFin v) := by
    intro jj hjj
    have hland := hS jj hjj
    obtain ⟨p, q, rfl⟩ := hpair jj
    have hl : (dst (ixP p)).toInt = (v.val : Int) := rowScatter_lands wfs dst (ij p q) (ij v c) hland
    refine (gather_take g1 hcoll hob hsim hivd D dstw p hN).trans ?_
    refine congrArg D (congrArg Shape.Idx.ofFin (Fin.ext ?_))
    show min (dstw (ixP p)).toInt.toNat (N - 1) = v.val
    rw [hdstw p (by rw [hl]; omega), hl]
    have := v.isLt
    simp only [Int.toNat_natCast]
    omega
  have hR : ∀ jj ∈ S, Host.gather (rowGatherDims N C n wfg) H srcw jj
        * (Host.gather g1 D srcw (Shape.Idx.ofFin (rowOf jj)) * Host.gather g1 D dstw (Shape.Idx.ofFin (rowOf jj)))
      = H ((rowGatherDims N C n wfg).operandIdx jj srcw)
        * (D (Shape.Idx.ofFin (rowOf ((rowGatherDims N C n wfg).operandIdx jj srcw))) * Host.gather g1 D dstw (Shape.Idx.ofFin (rowOf jj))) := by
    intro jj _
    rw [hsrc jj]
    rfl
  rw [Finset.sum_congr rfl hR]
  exact scaled_sum S (hD _).1 (hD _).2 (fun jj => H ((rowGatherDims N C n wfg).operandIdx jj srcw))
    (fun jj => D (Shape.Idx.ofFin (rowOf ((rowGatherDims N C n wfg).operandIdx jj srcw))))
    (fun jj => Host.gather g1 D dstw (Shape.Idx.ofFin (rowOf jj))) hdst

/-- THE WEIGHTED SEGMENT SUM: the accumulating scatter (from zeros) of the source-weighted gathered rows, scaled by the
    target's weight, is the accumulating scatter of the rows weighted by source × target. -/
theorem weighted_segment_sum {N C n : Nat} (hN : 0 < N)
    (wfs : ScatterDims.WF ⟨2, ![N, C]⟩ ⟨2, ![n, 1]⟩ ⟨2, ![n, C]⟩ [1] [0] [0] 1)
    (wfg : GatherDims.WF ⟨2, ![N, C]⟩ ⟨2, ![n, 1]⟩ ⟨2, ![n, C]⟩ [1] [0] [] [0] [] 1 ![1, C])
    (g1 : GatherDims ⟨1, ![N]⟩ ⟨2, ![n, 1]⟩ ⟨1, ![n]⟩) (hcoll : g1.collapsedSliceDims = [0])
    (hob : g1.operandBatchingDims = []) (hsim : g1.startIndexMap = [0]) (hivd : g1.indexVectorDim = 1)
    (D : (⟨1, ![N]⟩ : Shape).Idx → EReal) (hD : ∀ v, 0 ≤ D v ∧ D v ≠ ⊤)
    (H : (⟨2, ![N, C]⟩ : Shape).Idx → EReal)
    (dst srcw dstw : IVec ⟨2, ![n, 1]⟩ 32)
    (hdstw : ∀ e : Fin n, 0 ≤ (dst (ixP e)).toInt → dstw (ixP e) = dst (ixP e))
    (v : Fin N) (c : Fin C) :
    D (Shape.Idx.ofFin v) * Ideal.hostScatterAdd (rowScatterDims N C n wfs) (fun _ => 0) dst
        (Host.gather (rowGatherDims N C n wfg) (fun u => H u * D (Shape.Idx.ofFin (rowOf u))) srcw) (ij v c)
      = Ideal.hostScatterAdd (rowScatterDims N C n wfs) (fun _ => 0) dst
        (fun jj => Host.gather (rowGatherDims N C n wfg) H srcw jj
          * (Host.gather g1 D srcw (Shape.Idx.ofFin (rowOf jj)) * Host.gather g1 D dstw (Shape.Idx.ofFin (rowOf jj)))) (ij v c) := by
  unfold Ideal.hostScatterAdd
  exact weighted_core hN wfs wfg g1 hcoll hob hsim hivd D hD H dst srcw dstw hdstw v c _
    (fun jj hjj => (Finset.mem_filter.1 hjj).2)

end Idealize.ShloMosaic.Segment

end
-- ==== Proof.Law.lean ====
/-
  A node's normalising weight, on the extended reals.

  The weight is  w(y) = (if 0 < y then y^(-1/2) else 0)  of the node's degree count y.  Whatever y is (a count, an
  infinity), w(y) is a non-negative finite number: the inverse square root of a positive real is a positive real, that of
  +inf is 0, and the other branch is 0.  That is all the segment-sum law asks of a weight.
-/
import Idealize.ShloMosaic.PureOps.Ideal
import Idealize.ShloMosaic.PureOps.Ideal.Laws
import Mathlib.Data.EReal.Operations

noncomputable section

namespace Cert.Gcn

open Idealize.ShloMosaic

/-- The inverse square root of a positive extended real is non-negative and finite. -/
theorem rsqrt_range_of_pos {y : EReal} (hy : 0 < y) : 0 ≤ Ideal.rsqrt y ∧ Ideal.rsqrt y ≠ ⊤ := by
  induction y using EReal.rec with
  | bot => exact absurd hy (by simp)
  | top => exact ⟨le_of_eq Ideal.rsqrt_top.symm, by rw [Ideal.rsqrt_top]; exact EReal.zero_ne_top⟩
  | coe r =>
    have hr : 0 < r := by exact_mod_cast hy
    rw [Ideal.rsqrt_coe, if_neg (not_lt.mpr hr.le), if_neg hr.ne']
    exact ⟨by exact_mod_cast (inv_nonneg.mpr (Real.sqrt_nonneg r)), EReal.coe_ne_top _⟩

/-- The weight of a degree count: its inverse square root where the count is positive, zero elsewhere. -/
def weight (y : EReal) : EReal := Scalar.select (Ideal.cmp .ogt y 0) (Ideal.rsqrt y) 0

theorem weight_range (y : EReal) : 0 ≤ weight y ∧ weight y ≠ ⊤ := by
  unfold weight Scalar.select
  by_cases hy : 0 < y
  · have h1 : Ideal.cmp .ogt y 0 = 1 := by simp [Ideal.cmp, hy]
    rw [if_pos h1]; exact rsqrt_range_of_pos hy
  · have h0 : ¬ Ideal.cmp .ogt y 0 = 1 := by simp [Ideal.cmp, hy]
    rw [if_neg h0]; exact ⟨le_rfl, EReal.zero_ne_top⟩

end Cert.Gcn

end
-- ==== Proof.RefStage.lean ====
/-
  The reference's result read at an index.

  With src, dst the edge lists with the self loops appended, w the nodes' weights and h = x · W:
  the reference gathers h's row at each edge's source and scales it by  w[src] · w[dst],  sums what lands on each node
  (edges whose target is no node are dropped), and adds the bias.  Entry (v, c) is therefore the accumulating scatter,
  from zeros, of the rows  h[src e] · (w[src e] · w[dst e])  read at (v, c), plus b c.
  Both index vectors are read through the wrap of a negative index (idx < 0 ↦ idx + 100000), which leaves a
  non-negative index as it is.
-/
import proofs.«422281_j6296422056681_3_alg».proof.Proof.RefRead
import proofs.«422281_j6296422056681_3_alg».proof.Proof.LibSegment
import proofs.«422281_j6296422056681_3_alg».proof.Proof.Law
import Idealize.ShloMosaic.PureOps.Ideal.Laws

noncomputable section

namespace Cert.ReferenceIdeal.Stage

open Cert.ReferenceIdeal Cert.ReferenceIdeal.Gen Cert.ReferenceIdeal.ReadP
open Idealize.ShloMosaic Idealize.ShloMosaic.StableHlo.Predicate Idealize.ShloMosaic.Segment

/-- The row scatter's and the row gather's dimension numbers are well formed at these extents. -/
theorem wfS : ScatterDims.WF ⟨2, ![100000, 128]⟩ ⟨2, ![1700000, 1]⟩ ⟨2, ![1700000, 128]⟩ [1] [0] [0] 1 := by decide
theorem wfG : GatherDims.WF ⟨2, ![100000, 128]⟩ ⟨2, ![1700000, 1]⟩ ⟨2, ![1700000, 128]⟩ [1] [0] [] [0] [] 1 ![1, 128] := by
  decide

/-- The program's two dimension records are the row gather's and the row scatter's. -/
theorem gather2_eq : gather_S100000x128_S1700000x1_S1700000x128_1_0_n_n_0_1_1128 = rowGatherDims 100000 128 1700000 wfG := rfl
theorem scatter2_eq : scatter_S100000x128_S1700000x1_S1700000x128_1_0_0_1 = rowScatterDims 100000 128 1700000 wfS := rfl

/-- The scatter starts from zeros. -/
theorem zeros_eq : val_main_v41 (F := Ideal) = fun _ => (0 : EReal) := by
  funext i
  rw [val_main_v41_apply, val_main_cst_8_apply]
  exact Ideal.ofBits_zero_f32

/-- A non-negative index is its own wrap. -/
theorem wrap_of_nonneg (a b : BitVec 32) (h : 0 ≤ a.toInt) : Scalar.select (IntOp.cmpi .slt a 0#32) b a = a := by
  have hs : a.slt 0#32 = false := by
    simp only [BitVec.slt, BitVec.toInt_zero, decide_eq_false_iff_not, not_lt]
    exact h
  unfold Scalar.select IntOp.cmpi
  simp only [hs]
  rfl

/-- The wrapped targets agree with the targets wherever the target is non-negative. -/
theorem dst_wrap (x1 : (⟨S2x1600000, .i32⟩ : BufTy).Contents (Elt Ideal)) (e : Fin 1700000)
    (h : 0 ≤ (val_main_v42 (F := Ideal) x1 (ixP e)).toInt) :
    val_main_v27 (F := Ideal) x1 (ixP e) = val_main_v42 (F := Ideal) x1 (ixP e) := by
  have e27 : idx_main_v27 (ixP e) = Shape.Idx.ofFin e := funext fun a => Fin.ext (by match a with | ⟨0, _⟩ => rfl)
  have e42 : idx_main_v42 (ixP e) = Shape.Idx.ofFin e := funext fun a => Fin.ext (by match a with | ⟨0, _⟩ => rfl)
  rw [val_main_v42_apply, e42] at h ⊢
  rw [val_main_v27_apply, e27, val_main_v26_apply, val_main_v23_apply]
  exact wrap_of_nonneg _ _ h

/-- Each update row: the gathered row of h scaled by its source's weight times its target's weight. -/
theorem updates_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) :
    val_main_v40 (F := Ideal) x0 x1 x2 = fun jj =>
      Host.gather (rowGatherDims 100000 128 1700000 wfG) (val_main_v30 (F := Ideal) x0 x2) (val_main_v36 (F := Ideal) x1) jj
        * (Host.gather gather_S100000_S1700000x1_S1700000_n_0_n_n_0_1_1 (val_main_v14 (F := Ideal) x1) (val_main_v20 (F := Ideal) x1) (Shape.Idx.ofFin (rowOf jj))
          * Host.gather gather_S100000_S1700000x1_S1700000_n_0_n_n_0_1_1 (val_main_v14 (F := Ideal) x1) (val_main_v27 (F := Ideal) x1) (Shape.Idx.ofFin (rowOf jj))) := by
  funext jj
  have e : idx_main_v38 (idx_main_v39 jj) = Shape.Idx.ofFin (rowOf jj) := funext fun a => Fin.ext (by match a with | ⟨0, _⟩ => rfl)
  rw [val_main_v40_apply, val_main_v39_apply, val_main_v38_apply, val_main_v29_apply, e]
  unfold val_main_v37 val_main_v21 val_main_v28
  rw [gather2_eq]
  simp only [Ideal.mulf_def]

/-- A node's weight is the weight of its degree count: non-negative and finite, whatever the count. -/
theorem weight_range (x1 : (⟨S2x1600000, .i32⟩ : BufTy).Contents (Elt Ideal)) (i : S100000.Idx) :
    0 ≤ val_main_v14 (F := Ideal) x1 i ∧ val_main_v14 (F := Ideal) x1 i ≠ ⊤ := by
  have h : val_main_v14 (F := Ideal) x1 i = Cert.Gcn.weight (val_main_v10 (F := Ideal) x1 i) := by
    rw [val_main_v14_apply, val_main_v12_apply, val_main_v13_apply, val_main_v11_apply, val_main_cst_1_apply,
      val_main_call0_v1_apply, val_main_call0_v0_apply, val_main_cst_2_apply]
    generalize val_main_v10 (F := Ideal) x1 i = y
    simp only [Ideal.ofBits_def, Ideal.ofBits_zero_f32, Ideal.hostUnary_rsqrt_def]
    rfl
  rw [h]
  exact Cert.Gcn.weight_range _

/-- The accumulating scatter of those rows, from zeros: the reference's result before the bias. -/
theorem scatter_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) :
    val_main_v43 (F := Ideal) x0 x1 x2
      = Ideal.hostScatterAdd (rowScatterDims 100000 128 1700000 wfS) (fun _ => 0) (val_main_v42 (F := Ideal) x1)
          (fun jj => Host.gather (rowGatherDims 100000 128 1700000 wfG) (val_main_v30 (F := Ideal) x0 x2) (val_main_v36 (F := Ideal) x1) jj
            * (Host.gather gather_S100000_S1700000x1_S1700000_n_0_n_n_0_1_1 (val_main_v14 (F := Ideal) x1) (val_main_v20 (F := Ideal) x1) (Shape.Idx.ofFin (rowOf jj))
              * Host.gather gather_S100000_S1700000x1_S1700000_n_0_n_n_0_1_1 (val_main_v14 (F := Ideal) x1) (val_main_v27 (F := Ideal) x1) (Shape.Idx.ofFin (rowOf jj)))) := by
  unfold val_main_v43
  rw [zeros_eq, updates_eq, scatter2_eq]
  simp only [Host.scatterAdd, Ideal.hostScatterAdd_def]

/-- The bias, broadcast down the rows, read at (v, c). -/
theorem bias_apply (x3 : (⟨S128, .f32⟩ : BufTy).Contents (Elt Ideal)) (v : Fin 100000) (c : Fin 128) :
    val_main_v45 (F := Ideal) x3 (ij v c) = x3 (Shape.Idx.ofFin c) := by
  unfold val_main_v45 val_main_v44
  exact bcast_cols _ _ x3 v c

/-- THE REFERENCE AT (v, c): the scatter read there, plus the bias. -/
theorem result_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (v : Fin 100000) (c : Fin 128) :
    val_main_v46 (F := Ideal) x0 x1 x2 x3 (ij v c)
      = FloatOps.addf (F := Ideal) (φ := .f32) (val_main_v43 (F := Ideal) x0 x1 x2 (ij v c)) (x3 (Shape.Idx.ofFin c)) := by
  rw [val_main_v46_apply, bias_apply]

end Cert.ReferenceIdeal.Stage

end
-- ==== Proof.KernelValue.lean ====
/-
  The kernel program's result at an index, on the extended reals.

  The region stores, at (p, q),  (Σ_k x[p,k] · W[k,q]) · w p : row p of h = x · W scaled by node p's weight (the
  narrower formats are the identity here).  The host then gathers those rows at the wrapped sources, sums what lands on
  each target, scales row v by w v and adds the bias: entry (v, c) is
      w v · (accumulating scatter, from zeros, of the rows  h[src e] · w[src e])(v, c)  +  b c.
-/
import proofs.«422281_j6296422056681_3_alg».proof.Proof.KernelHost
import proofs.«422281_j6296422056681_3_alg».proof.Proof.RegionValue
import proofs.«422281_j6296422056681_3_alg».proof.Proof.RefStage

set_option maxRecDepth 16384

noncomputable section

namespace Cert.KernelIdeal.IdealValue

open Cert.KernelIdeal Cert.KernelIdeal.Gen Idealize.ShloMosaic Idealize.ShloMosaic.TcCoe Idealize.SL.Sem
open Idealize.ShloMosaic.StableHlo.Predicate Idealize.ShloMosaic.Segment
open Cert.ReferenceIdeal.Stage (wfS wfG)

variable (m : (ℓ : Loc nD τ sig) → Buf (Elt Ideal) ℓ)

/-- A pair of coordinates is one index, however it is spelt. -/
theorem ij_eq_ix2 {n0 n1 : Nat} (p : Fin n0) (q : Fin n1) : ij p q = ValueIdx.ix2 p q :=
  funext fun a => by match a with | ⟨0, _⟩ => rfl | ⟨1, _⟩ => rfl

/-- A widening of format is the identity on the extended reals. -/
theorem extf_ideal {s : Shape} (y : FVec Ideal s .bf16) (h : FTy.bf16.bits < FTy.f32.bits) : extf .f32 y h = y := rfl

/-- A sum of a product of vectors, read at an index. -/
theorem addf_mulf_apply {s : Shape} (A B C : FVec Ideal s .f32) (i : s.Idx) :
    addf (mulf A B) C i
      = FloatOps.addf (F := Ideal) (φ := .f32) (FloatOps.mulf (F := Ideal) (φ := .f32) (A i) (B i)) (C i) := rfl

/-- WHAT THE REGION STORES: row p of x · W, scaled by node p's weight. -/
theorem region_rows (c : Dev nD) :
    (dats (F := Ideal) m 0 c).arrAt 3 cfg0.N
      = fun (u : (⟨2, ![100000, 128]⟩ : Shape).Idx) =>
          Cert.ReferenceIdeal.ReadP.val_main_v30 (F := Ideal) (m ((c.tc : Thread nD τ).loc main_arg0)) (m ((c.tc : Thread nD τ).loc main_arg2)) u
            * Cert.ReferenceIdeal.ReadP.val_main_v14 (F := Ideal) (m ((c.tc : Thread nD τ).loc main_arg1)) (Shape.Idx.ofFin (rowOf u)) := by
  funext u
  obtain ⟨p, q, rfl⟩ : ∃ (p : Fin 100000) (q : Fin 128), u = ij p q := ⟨u 0, u 1, (ij_eta u).symm⟩
  have hl : ∀ k : Fin 128, Cert.ReferenceIdeal.ReadP.lidx_main_v30 (ij p q) k = ValueIdx.ix2 p k :=
    fun k => funext fun a => by match a with | ⟨0, _⟩ => rfl | ⟨1, _⟩ => rfl
  have hr : ∀ k : Fin 128, Cert.ReferenceIdeal.ReadP.ridx_main_v30 (ij p q) k = ValueIdx.ix2 k q :=
    fun k => funext fun a => by match a with | ⟨0, _⟩ => rfl | ⟨1, _⟩ => rfl
  have hcol : RegionValue.darr m c (ValueIdx.ix2 p (0 : Fin 1))
      = Cert.ReferenceIdeal.ReadP.val_main_v14 (F := Ideal) (m ((c.tc : Thread nD τ).loc main_arg1)) (Shape.Idx.ofFin p) := by
    show Gen.V m c main_v16 (ValueIdx.ix2 p (0 : Fin 1)) = _
    rw [HostValue.V_col]
    generalize Cert.ReferenceIdeal.ReadP.val_main_v14 (F := Ideal) (m ((c.tc : Thread nD τ).loc main_arg1)) = D
    have e : ValueIdx.ix2 p (0 : Fin 1) = ixP p := funext fun a => by match a with | ⟨0, _⟩ => rfl | ⟨1, _⟩ => rfl
    rw [e]
    exact bcast_col1 _ D p
  have hx : RegionValue.xarr m c = m ((c.tc : Thread nD τ).loc main_arg0) := V_main_arg0 m c
  have hw : RegionValue.warr m c = m ((c.tc : Thread nD τ).loc main_arg2) := (HostValue.V_wmat m c).trans rfl
  rw [ij_eq_ix2 p q, RegionValue.final m c p q, hcol, hx, hw, ← ij_eq_ix2 p q, Cert.ReferenceIdeal.ReadP.val_main_v30_apply]
  simp only [hl, hr]

/-- The host tail's accumulating scatter as the exact sum it is on the extended reals, for any stored array HS: from
    zeros, at the targets, of HS's rows gathered at the wrapped sources (the widening of format the identity). -/
theorem scatter_fn (HS : (⟨Cert.ReferenceIdeal.S100000x128, .bf16⟩ : BufTy).Contents (Elt Ideal))
    (x1 : (⟨Cert.ReferenceIdeal.S2x1600000, .i32⟩ : BufTy).Contents (Elt Ideal)) (h : FTy.bf16.bits < FTy.f32.bits) :
    Host.scatterAdd (F := Ideal) (φ := .f32) Cert.ReferenceIdeal.scatter_S100000x128_S1700000x1_S1700000x128_1_0_0_1
        (Cert.ReferenceIdeal.ReadP.val_main_v41 (F := Ideal)) (Cert.ReferenceIdeal.ReadP.val_main_v42 (F := Ideal) x1)
        (extf .f32 (Host.gather Cert.ReferenceIdeal.gather_S100000x128_S1700000x1_S1700000x128_1_0_n_n_0_1_1128 HS
          (Cert.ReferenceIdeal.ReadP.val_main_v36 (F := Ideal) x1)) h)
      = Ideal.hostScatterAdd (rowScatterDims 100000 128 1700000 wfS) (fun _ => 0) (Cert.ReferenceIdeal.ReadP.val_main_v42 (F := Ideal) x1)
          (Host.gather (rowGatherDims 100000 128 1700000 wfG) HS (Cert.ReferenceIdeal.ReadP.val_main_v36 (F := Ideal) x1)) := by
  rw [Cert.ReferenceIdeal.Stage.scatter2_eq, Cert.ReferenceIdeal.Stage.gather2_eq, Cert.ReferenceIdeal.Stage.zeros_eq, extf_ideal]
  simp only [Host.scatterAdd, Ideal.hostScatterAdd_def]

/-- THE KERNEL PROGRAM AT (v, c). -/
theorem result_apply (c : Dev nD) (v : Fin 100000) (cc : Fin 128) :
    Pipeline.afterTail₀ cfgs (dats m) 0 (V0 m) [hostOps1] c main_v34 (ij v cc)
      = FloatOps.addf (F := Ideal) (φ := .f32)
          (FloatOps.mulf (F := Ideal) (φ := .f32)
            (Cert.ReferenceIdeal.ReadP.val_main_v14 (F := Ideal) (m ((c.tc : Thread nD τ).loc main_arg1)) (Shape.Idx.ofFin v))
            (Ideal.hostScatterAdd (rowScatterDims 100000 128 1700000 wfS) (fun _ => 0)
              (Cert.ReferenceIdeal.ReadP.val_main_v42 (F := Ideal) (m ((c.tc : Thread nD τ).loc main_arg1)))
              (Host.gather (rowGatherDims 100000 128 1700000 wfG)
                (fun (u : (⟨2, ![100000, 128]⟩ : Shape).Idx) =>
                  Cert.ReferenceIdeal.ReadP.val_main_v30 (F := Ideal) (m ((c.tc : Thread nD τ).loc main_arg0)) (m ((c.tc : Thread nD τ).loc main_arg2)) u
                    * Cert.ReferenceIdeal.ReadP.val_main_v14 (F := Ideal) (m ((c.tc : Thread nD τ).loc main_arg1)) (Shape.Idx.ofFin (rowOf u)))
                (Cert.ReferenceIdeal.ReadP.val_main_v36 (F := Ideal) (m ((c.tc : Thread nD τ).loc main_arg1))))
              (ij v cc)))
          (m ((c.tc : Thread nD τ).loc main_arg3) (Shape.Idx.ofFin cc)) := by
  rw [HostValue.tail_ref, addf_mulf_apply, bcast_rows, Cert.ReferenceIdeal.Stage.bias_apply, scatter_fn, region_rows]

end Cert.KernelIdeal.IdealValue

end
-- ==== Proof.Bridge.lean ====
/-
  The two programs compute one function.

  Kernel side, entry (v, c):   w v · Σ_{e lands on v} (h[src e, c] · w[src e])  +  b c.
  Reference side:                    Σ_{e lands on v} (h[src e, c] · (w[src e] · w[dst e]))  +  b c.
  An edge that lands on v has target exactly v (a scatter does not clamp, and the wrap of a non-negative index is
  itself), so w[dst e] = w v inside the sum; and w v is a non-negative finite number, so it may be taken out of the sum
  on the extended reals whatever the summands are.  No finiteness of x, W or b is used.
-/
import proofs.«422281_j6296422056681_3_alg».proof.Proof.RefStage

set_option maxRecDepth 16384

noncomputable section

namespace Cert.Proof.Bridge

open Idealize.ShloMosaic Idealize.ShloMosaic.TcCoe Idealize.SL.Sem
open Idealize.ShloMosaic.StableHlo.Predicate Idealize.ShloMosaic.Segment
open Cert.ReferenceIdeal.Stage (wfS wfG)

/-- The weights of the sources and the rows of h are gathered at one and the same index vector (the wrapped sources,
    computed twice by the program). -/
theorem src_idx_eq {F : FTy → Type} [FloatOps F] (x1 : (⟨Cert.ReferenceIdeal.S2x1600000, .i32⟩ : BufTy).Contents (Elt F)) :
    Cert.ReferenceIdeal.ReadP.val_main_v20 (F := F) x1 = Cert.ReferenceIdeal.ReadP.val_main_v36 (F := F) x1 := rfl

/-- THE TWO VALUES AGREE at every index. -/
theorem values_agree (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal)) (v : Fin 100000) (cc : Fin 128) :
    FloatOps.addf (F := Ideal) (φ := .f32)
        (FloatOps.mulf (F := Ideal) (φ := .f32)
          (Cert.ReferenceIdeal.ReadP.val_main_v14 (F := Ideal) x1 (Shape.Idx.ofFin v))
          (Ideal.hostScatterAdd (rowScatterDims 100000 128 1700000 wfS) (fun _ => 0) (Cert.ReferenceIdeal.ReadP.val_main_v42 (F := Ideal) x1)
            (Host.gather (rowGatherDims 100000 128 1700000 wfG)
              (fun (u : (⟨2, ![100000, 128]⟩ : Shape).Idx) =>
                Cert.ReferenceIdeal.ReadP.val_main_v30 (F := Ideal) x0 x2 u * Cert.ReferenceIdeal.ReadP.val_main_v14 (F := Ideal) x1 (Shape.Idx.ofFin (rowOf u)))
              (Cert.ReferenceIdeal.ReadP.val_main_v36 (F := Ideal) x1))
            (ij v cc)))
        (x3 (Shape.Idx.ofFin cc))
      = Cert.ReferenceIdeal.ReadP.val_main_v46 (F := Ideal) x0 x1 x2 x3 (ij v cc) := by
  rw [Cert.ReferenceIdeal.Stage.result_apply, Cert.ReferenceIdeal.Stage.scatter_eq, src_idx_eq (F := Ideal) x1, Ideal.mulf_def]
  rw [weighted_segment_sum (by decide) wfS wfG Cert.ReferenceIdeal.gather_S100000_S1700000x1_S1700000_n_0_n_n_0_1_1 rfl rfl rfl rfl
    (Cert.ReferenceIdeal.ReadP.val_main_v14 (F := Ideal) x1) (Cert.ReferenceIdeal.Stage.weight_range x1) (Cert.ReferenceIdeal.ReadP.val_main_v30 (F := Ideal) x0 x2)
    (Cert.ReferenceIdeal.ReadP.val_main_v42 (F := Ideal) x1) (Cert.ReferenceIdeal.ReadP.val_main_v36 (F := Ideal) x1) (Cert.ReferenceIdeal.ReadP.val_main_v27 (F := Ideal) x1)
    (Cert.ReferenceIdeal.Stage.dst_wrap x1) v cc]

end Cert.Proof.Bridge

end
-- ==== Proof.lean ====
/-
  The certificate's proof: a graph convolution  out = D^(-1/2) (A + I) D^(-1/2) (x W) + b  whose dense product x W,
  scaled row by row by the nodes' weights w = deg^(-1/2), runs as a tiled matrix-product kernel, against the plain
  array program that weights every edge message by w[src] · w[dst].

  The three frames: the two kernel programs' are the generated frame certificates; the reference has no kernel and its
  frame is its run with the result dropped.  Nothing was rewritten by the idealization, so it is preserved trivially.
  The two idealized programs agree: the kernel program's run ends with the result buffer at the host tail's term over
  what the region stored (Proof/KernelHost.lean), the reference's at its composed term; index by index both are the same
  extended real (Proof/Bridge.lean: the target's weight, non-negative and finite, taken out of the sum of the messages
  that reach the target).
-/
import proofs.«422281_j6296422056681_3_alg».proof.Defs
import proofs.«422281_j6296422056681_3_alg».proof.Proof.Gen.Kernel
import proofs.«422281_j6296422056681_3_alg».proof.Proof.Gen.Kernel.Skeleton
import proofs.«422281_j6296422056681_3_alg».proof.Proof.Gen.Kernel.Launch
import proofs.«422281_j6296422056681_3_alg».proof.Proof.Gen.Kernel.Points
import proofs.«422281_j6296422056681_3_alg».proof.Proof.Gen.Kernel.Frame
import proofs.«422281_j6296422056681_3_alg».proof.Proof.Gen.KernelIdeal
import proofs.«422281_j6296422056681_3_alg».proof.Proof.Gen.KernelIdeal.Skeleton
import proofs.«422281_j6296422056681_3_alg».proof.Proof.Gen.KernelIdeal.Launch
import proofs.«422281_j6296422056681_3_alg».proof.Proof.Gen.KernelIdeal.Points
import proofs.«422281_j6296422056681_3_alg».proof.Proof.Gen.KernelIdeal.Frame
import proofs.«422281_j6296422056681_3_alg».proof.Proof.Gen.ReferenceIdeal
import proofs.«422281_j6296422056681_3_alg».proof.Proof.Gen.Pre_finite_inputs
import proofs.«422281_j6296422056681_3_alg».proof.Proof.KernelValue
import proofs.«422281_j6296422056681_3_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem
open Idealize.ShloMosaic.StableHlo.Predicate

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments the two idealized programs end with equal results: the kernel program's
    result buffer holds the host tail's term, the reference's its composed term, and the two are one function of the
    arguments, index by index. -/
theorem algebraic : Cert.algebraic_KernelIdeal_ReferenceIdeal := by
  intro m ρ m' ρ' _ hagree
  refine ⟨fun c => Pipeline.afterTail₀ Cert.KernelIdeal.cfgs (Cert.KernelIdeal.Gen.dats m) 0 (Cert.KernelIdeal.Gen.V0 m)
      [Cert.KernelIdeal.Gen.hostOps1] c Cert.KernelIdeal.main_v34, Cert.KernelIdeal.HostValue.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v46_eq, (hagree c).1, (hagree c).2.1, (hagree c).2.2.1, (hagree c).2.2.2]
  funext i
  obtain ⟨v, cc, rfl⟩ : ∃ (v : Fin 100000) (cc : Fin 128), i = ij v cc := ⟨i 0, i 1, (ij_eta i).symm⟩
  beta_reduce
  rw [Cert.KernelIdeal.IdealValue.result_apply, Cert.Proof.Bridge.values_agree]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
